-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S131072x512 .f32) (main_arg1 : FVec F S512 .f32) (main_arg2 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x512 : Shape := ⟨2, ![131072, 512]⟩
abbrev S512 : Shape := ⟨1, ![512]⟩
abbrev S1x512 : Shape := ⟨2, ![1, 512]⟩
abbrev S1024x512 : Shape := ⟨2, ![1024, 512]⟩
abbrev S_ : Shape := ⟨0, ![]⟩
abbrev S2048x512 : Shape := ⟨2, ![2048, 512]⟩

abbrev nBuf : Space → Nat
  | .hbm => 17
  | .vmem => 12
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S_, .f32⟩
  | .hbm, ⟨6, _⟩ => ⟨S1x512, .f32⟩
  | .hbm, ⟨7, _⟩ => ⟨S1x512, .f32⟩
  | .hbm, ⟨8, _⟩ => ⟨S_, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S131072x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bcast_S_S1x512 : S_.BroadcastsInDim S1x512 (![] : Fin 0 → Fin S1x512.rank)
  inb_S2048x512_S2048x512_0_0 : ∀ a, (![0, 0] : Fin 2 → Nat) a + S2048x512.size a ≤ S2048x512.size a
  h_S2048x512 : 0 < S2048x512.numel
  broadcasts_S1x512_S2048x512 : S1x512.Broadcasts S2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S131072x512.size a
  hwx1_5 : ∀ i : grid1.Coords, EltTy.bits .f32 = 32 ∨ (Rect.block (s := S131072x512) S2048x512.size (cc1_transform_5 i) (hinb1_5 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S131072x512 : Shape := ⟨2, ![131072, 512]⟩
abbrev S512 : Shape := ⟨1, ![512]⟩
abbrev S_ : Shape := ⟨0, ![]⟩
abbrev S1x512 : Shape := ⟨2, ![1, 512]⟩

abbrev nBuf : Space → Nat
  | .hbm => 27
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S_, .f32⟩
  | .hbm, ⟨7, _⟩ => ⟨S1x512, .f32⟩
  | .hbm, ⟨8, _⟩ => ⟨S1x512, .f32⟩
  | .hbm, ⟨9, _⟩ => ⟨S131072x512, .f32⟩
  | .hbm, ⟨10, _⟩ => ⟨S131072x512, .f32⟩
  | .hbm, ⟨11, _⟩ => ⟨S131072x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S131072x512, .f32⟩
  | .hbm, ⟨20, _⟩ => ⟨S131072x512, .f32⟩
  | .hbm, ⟨21, _⟩ => ⟨S1x512, .f32⟩
  | .hbm, ⟨22, _⟩ => ⟨S131072x512, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S131072x512_S512_d0 : S131072x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S131072x512_0_1 : S1x512.BroadcastsInDim S131072x512 (![0, 1] : Fin 2 → Fin S131072x512.rank)
  bcast_S_S512 : S_.BroadcastsInDim S512 (![] : Fin 0 → Fin S512.rank)

variable [Facts₀]

class Facts : Prop extends Facts₀ where

variable [Facts]
-- ==== Proof.Spec.lean ====
/-
  Column standardisation of a 131072 x 512 array x with a scale and a shift of 512 entries, as one
  function of the three arrays, in the two spellings the programs use.

  Per column d: the sum s d of the column, its mean s d / 131072, and a variance; entry (n, d) of the
  result is ((x n d - mean d) * rsqrt (var d)) * scale d + shift d. The two spellings differ in the
  variance only: the centred second moment (sum of (x n d - mean d)^2) / 131072, and the raw second
  moment less the squared mean (sum of (x n d)^2) / 131072 - mean d * mean d. Over real entries these
  are one number: expanding the square, sum (x - mu)^2 = sum x^2 - 2 mu (sum x) + 131072 mu^2, and
  sum x = 131072 mu. The identity needs real entries: it distributes a product over a sum, which
  fails at an infinity.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of the data array and of the scale and the shift. -/
abbrev SX : Shape := ⟨2, ![131072, 512]⟩
abbrev SD : Shape := ⟨1, ![512]⟩

/-- The divisor both programs spell, 131072.0, denotes the number of rows. -/
theorem ofBits_rows : Ideal.ofBits .f32 0x48000000#32 = ((131072 : ℝ) : EReal) := by
  simp [Ideal.ofBits, Ideal.ieee, -EReal.coe_mul]; norm_num

/-- The divisor as the programs read it. -/
def rows : EReal := Ideal.ofBits .f32 0x48000000#32

section
variable (x : SX.Idx → EReal)

/-- Column d's sum, and the sum of its squares. -/
def colSum (d : Fin 512) : EReal := ∑ k : Fin 131072, x (ix2 k d)
def colSumSq (d : Fin 512) : EReal := ∑ k : Fin 131072, x (ix2 k d) * x (ix2 k d)

/-- Column d's mean. -/
def mean (d : Fin 512) : EReal := Ideal.div (colSum x d) rows

/-- The centred second moment of column d. -/
def varCentred (d : Fin 512) : EReal :=
  Ideal.div (∑ k : Fin 131072, (x (ix2 k d) - mean x d) * (x (ix2 k d) - mean x d)) rows

/-- The raw second moment of column d less its squared mean. -/
def varRaw (d : Fin 512) : EReal := Ideal.div (colSumSq x d) rows - mean x d * mean x d

/-- Entry (n, d) standardised with a given variance per column, scaled and shifted. -/
def normAt (v : Fin 512 → EReal) (scale shift : SD.Idx → EReal) (n : Fin 131072) (d : Fin 512) : EReal :=
  (x (ix2 n d) - mean x d) * Ideal.rsqrt (v d) * scale (ix1 d) + shift (ix1 d)

/-- The whole result with the centred variance, -/
def stdCentred (scale shift : SD.Idx → EReal) : SX.Idx → EReal :=
  fun i => normAt x (varCentred x) scale shift (i 0) (i 1)

/-- and with the raw one. -/
def stdRaw (scale shift : SD.Idx → EReal) : SX.Idx → EReal :=
  fun i => normAt x (varRaw x) scale shift (i 0) (i 1)

end

/-- A finite sum of reals, read in the extended reals, is the sum of the readings. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The variance identity over the reals, for c the number of summands: with mu = (sum r) / c,
    (sum (r - mu)^2) / c = (sum r^2) / c - mu^2. Quotients are written as products with 1 / c. -/
theorem var_real {ι : Type*} [Fintype ι] (r : ι → ℝ) (c : ℝ) (hc : c ≠ 0) (hcard : (Fintype.card ι : ℝ) = c) :
    (∑ k, (r k - (∑ j, r j) * (1 / c)) * (r k - (∑ j, r j) * (1 / c))) * (1 / c)
      = (∑ k, r k * r k) * (1 / c) - ((∑ j, r j) * (1 / c)) * ((∑ j, r j) * (1 / c)) := by
  generalize hS : (∑ j, r j) = S
  have h : ∀ k, (r k - S * (1 / c)) * (r k - S * (1 / c))
      = r k * r k - 2 * (S * (1 / c)) * r k + (S * (1 / c)) * (S * (1 / c)) := fun k => by ring
  rw [Finset.sum_congr rfl fun k _ => h k, Finset.sum_add_distrib, Finset.sum_sub_distrib, ← Finset.mul_sum,
    Finset.sum_const, Finset.card_univ, nsmul_eq_mul, hcard, hS]
  field_simp
  ring

/-- Over real entries the two variances of a column are one extended real. -/
theorem varRaw_eq_varCentred (x : SX.Idx → EReal) (hfin : ∀ i, ∃ r : ℝ, x i = (r : EReal)) (d : Fin 512) :
    varRaw x d = varCentred x d := by
  choose r hr using hfin
  have hx : ∀ k : Fin 131072, x (ix2 k d) = ((r (ix2 k d) : ℝ) : EReal) := fun k => hr _
  unfold varRaw varCentred mean colSumSq colSum rows
  rw [ofBits_rows]
  simp only [Ideal.div_coe (by norm_num : (131072 : ℝ) ≠ 0), hx]
  simp only [← EReal.coe_mul, ← coe_sum, ← EReal.coe_sub]
  exact congrArg _ (var_real (fun k => r (ix2 k d)) 131072 (by norm_num) (by simp)).symm

/-- So over real entries the two spellings of the result are one function. -/
theorem stdRaw_eq_stdCentred (x : SX.Idx → EReal) (hfin : ∀ i, ∃ r : ℝ, x i = (r : EReal))
    (scale shift : SD.Idx → EReal) : stdRaw x scale shift = stdCentred x scale shift := by
  unfold stdRaw stdCentred
  rw [show varRaw x = varCentred x from funext (varRaw_eq_varCentred x hfin)]

end Cert.Spec

end
-- ==== Proof.Finite.lean ====
/-
  The precondition read back: it is the conjunction of three tests "every entry's absolute value is
  below +infinity", one per input array, each a reduction by and of the entrywise comparisons. From its
  being true, every entry of the data array is a real number: an extended real whose absolute value is
  below the top element is neither infinity.
-/
import proofs.«113995_j87076166959941_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx

/-- The pattern the tests compare against denotes the top element. -/
theorem ofBits_inf : Ideal.ofBits .f32 0x7F800000#32 = (⊤ : EReal) := by
  simp [Ideal.ofBits, Ideal.ieee]

/-- An extended real whose absolute value compares below the top element is a real. -/
theorem real_of_abs_lt_top (x : EReal) (h : Ideal.cmp .olt (max x (-x)) ⊤ = 1#1) : ∃ r : ℝ, x = (r : EReal) := by
  induction x using EReal.rec with
  | bot => exfalso; simp [Ideal.cmp] at h
  | top => exfalso; simp [Ideal.cmp] at h
  | coe r => exact ⟨r, rfl⟩

instance : Subsingleton Cert.Pre_finite_inputs.S_.Idx := ⟨fun a b => funext fun d => d.elim0⟩

/-- Under the precondition every entry of the first array is a real. -/
theorem x_real [Cert.Pre_finite_inputs.Facts] (x : FVec Ideal Cert.Pre_finite_inputs.S131072x512 .f32)
    (g b : FVec Ideal Cert.Pre_finite_inputs.S512 .f32)
    (h : Cert.Pre_finite_inputs.fn (F := Ideal) x g b = fun _ => 1#1) (i : Cert.Pre_finite_inputs.S131072x512.Idx) :
    ∃ r : ℝ, x i = (r : EReal) := by
  have h0 := congrFun h ix0
  dsimp only [Cert.Pre_finite_inputs.fn] at h0
  obtain ⟨h1, -⟩ := IntOp.andi_eq_one.1 h0
  obtain ⟨hx, -⟩ := IntOp.andi_eq_one.1 h1
  have e := Host.reduce_andi_all _ _ _ _ _ hx i
  refine real_of_abs_lt_top (x i) ?_
  rw [← ofBits_inf]
  exact e

end Cert.Finite

end
-- ==== Proof.RefValue.lean ====
/-
  The reference's result read entry by entry: at (n, d) it is
  ((x n d - mean d) * rsqrt (var d)) * scale d + shift d, with mean d the column's sum over 131072 and
  var d the sum of the squared centred column over 131072: the centred spelling of the specification.
  Every operation of the reference reads its operand at an index computed from the literal shapes; the
  five compositions of those index maps that occur are a column's entry (k, d) and the scale's and the
  shift's entry d.
-/
import proofs.«113995_j87076166959941_1_alg».proof.Defs
import proofs.«113995_j87076166959941_1_alg».proof.Proof.Gen.ReferenceIdeal.Run
import proofs.«113995_j87076166959941_1_alg».proof.Proof.Gen.ReferenceIdeal.Read
import proofs.«113995_j87076166959941_1_alg».proof.Proof.Spec

noncomputable section

namespace Cert.ReferenceIdeal.RefValue

open Cert.ReferenceIdeal Cert.ReferenceIdeal.Read Idealize.ShloMosaic Idealize.ShloMosaic.ValueIdx Cert.Spec

/-- The mean's summand k at entry (n, d) is the column's entry (k, d), -/
theorem idx_mean (n : Fin 131072) (d : Fin 512) (k : Fin 131072) :
    idx_main_v0 (idx_main_v1 (idx_main_v4 (ix2 n d))) k = ix2 k d :=
  funext fun a => Fin.ext (by match a with | ⟨0, _⟩ => rfl | ⟨1, _⟩ => rfl)

/-- and so is the variance's. -/
theorem idx_var (n : Fin 131072) (d : Fin 512) (k : Fin 131072) :
    idx_main_v7 (idx_main_v11 (idx_main_v12 (ix2 n d))) k = ix2 k d :=
  funext fun a => Fin.ext (by match a with | ⟨0, _⟩ => rfl | ⟨1, _⟩ => rfl)

/-- The scale and the shift are read at d. -/
theorem idx_scale (n : Fin 131072) (d : Fin 512) : idx_main_v14 (idx_main_v15 (ix2 n d)) = ix1 d :=
  funext fun a => Fin.ext (by match a with | ⟨0, _⟩ => rfl)
theorem idx_shift (n : Fin 131072) (d : Fin 512) : idx_main_v17 (idx_main_v18 (ix2 n d)) = ix1 d :=
  funext fun a => Fin.ext (by match a with | ⟨0, _⟩ => rfl)

/-- The reference's last stage is the centred spelling of the specification. -/
theorem ref_eq (x : SX.Idx → EReal) (scale shift : SD.Idx → EReal) :
    val_main_v19 (F := Ideal) x scale shift = stdCentred x scale shift := by
  funext i
  obtain ⟨n, d, rfl⟩ : ∃ (n : Fin 131072) (d : Fin 512), i = ix2 n d := ⟨i 0, i 1, eq_ix2 i⟩
  simp only [val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply,
    idx_mean, idx_var, idx_scale, idx_shift,
    Ideal.ofBits_def, Ideal.addf_def, Ideal.subf_def, Ideal.mulf_def, Ideal.hostDivf_def, Ideal.hostUnary_rsqrt_def,
    Ideal.ofBits_zero_f32, zero_add]
  rfl

end Cert.ReferenceIdeal.RefValue

end
-- ==== Proof.Stats.lean ====
/-
  The first region: per column d of the 131072 x 512 array x it accumulates, over 128 grid points of
  1024 rows each, the column's sum and the sum of its squares, in two 1 x 512 blocks that stay in
  place across the points and are written back once, after the last point.

  At the first point the blocks are zeroed and then the point's 1024 rows are added; at every later
  point the point's rows are added to what the point before left. So after point n the first block
  holds, at (0, d), the sum over the points s <= n of the sum over j < 1024 of x (1024 s + j, d), and
  the second the same of the squares; after point 127 these are the sums over all 131072 rows, since
  every row k is 1024 s + j for exactly one pair (s, j).
-/
import proofs.«113995_j87076166959941_1_alg».proof.Proof.Gen.KernelIdeal.Frame
import proofs.«113995_j87076166959941_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Stats

open Cert.KernelIdeal Cert.KernelIdeal.Gen
open Idealize.ShloMosaic Idealize.ShloMosaic.TcCoe Idealize.SL.Sem Idealize.ShloMosaic.ValueIdx
open Idealize.ShloMosaic.Pipeline (Dat)

/-! ## What each case of the body leaves in the two blocks, as values -/

section Pieces
variable {F : FTy → Type} [FloatOps F]

theorem hz : (![0, 0] : Fin 2 → Nat) = fun _ => 0 := funext fun a => by fin_cases a <;> rfl

/-- A later point leaves, in the first block holding acc, acc plus the column sums of the point's rows, -/
theorem later_sum (c : Dev nD) (i : grid0.Coords) (a1 : Memref sig .tc .vmem S1024x512 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S1024x512 .f32) (acc acc2 : Vec F S1x512 .f32) :
    out0_B_1 c i a1 h1 a2 h2 a3 h3 hc x acc acc2 = k0_pay3 x acc := by
  unfold out0_B_1
  rw [View.read_writes_eq_canon _ _ _ (cover0_B_1 c i a1 h1 a2 h2 a3 h3 hc x acc acc2)]
  unfold kernelRun0_B
  dsimp only
  sl_unfold_words
  rw [View.canon_unit_zero hz]
  simp only [View.readAt_eq_ld, h1.read_unread, h2.read_unread, View.ld_unit_zero (S := S1024x512) hz,
    View.ld_unit_zero (S := S1x512) hz]

/-- and in the second block holding acc2, acc2 plus the column sums of their squares. -/
theorem later_sumsq (c : Dev nD) (i : grid0.Coords) (a1 : Memref sig .tc .vmem S1024x512 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S1024x512 .f32) (acc acc2 : Vec F S1x512 .f32) :
    out0_B_2 c i a1 h1 a2 h2 a3 h3 hc x acc acc2 = k0_pay4 x acc2 := by
  unfold out0_B_2
  rw [View.read_writes_eq_canon _ _ _ (cover0_B_2 c i a1 h1 a2 h2 a3 h3 hc x acc acc2)]
  unfold kernelRun0_B
  dsimp only
  sl_unfold_words
  rw [View.canon_unit_zero hz]
  simp only [View.readAt_eq_ld, h1.read_unread, h3.read_unread, View.ld_unit_zero (S := S1024x512) hz,
    View.ld_unit_zero (S := S1x512) hz]

/-- The first point zeroes the first block, reads the zeros back and adds the point's column sums, -/
theorem first_sum (c : Dev nD) (i : grid0.Coords) (a1 : Memref sig .tc .vmem S1024x512 .f32) (h1 : a1.IsWhole)
    (a2 : Memref sig .tc .vmem S1x512 .f32) (h2 : a2.IsWhole) (a3 : Memref sig .tc .vmem S1x512 .f32) (h3 : a3.IsWhole)
    (hc : cond0_0 i) (x : Vec F S1024x512 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S1024x512) hz]

/-- and likewise the second with the squares. -/
theorem first_sumsq (c : Dev nD) (i : grid0.Coords) (a1 : Memref sig .tc .vmem S1024x512 .f32) (h1 : a1.IsWhole)
    (a2 : Memref sig .tc .vmem S1x512 .f32) (h2 : a2.IsWhole) (a3 : Memref sig .tc .vmem S1x512 .f32) (h3 : a3.IsWhole)
    (hc : cond0_0 i) (x : Vec F S1024x512 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x512) hz, View.readCov_unit_zero (S := S1x512) _ hz]
  simp only [View.readAt_eq_ld, h1.read_unread, View.ld_unit_zero (S := S1024x512) hz]

end Pieces

/-! ## The body's arithmetic at an entry, over the extended reals -/

/-- The lane sum over the 1024 rows of a block, at column d. -/
theorem lane_sum (x : FVec Ideal S1024x512 .f32) (d : Fin 512) :
    multiReduction .add [0] S512 x 0x00000000#32 reduces_S1024x512_S512 (.inl rfl) rfl (ix1 d)
      = ∑ j : Fin 1024, x (ix2 j d) := by
  refine (Ideal.multiReduction_add_single x 0x00000000#32 reduces_S1024x512_S512 (.inl rfl) rfl (ix1 d)).trans ?_
  exact Finset.sum_congr rfl fun j _ => congrArg x (funext fun a => Fin.ext (by
    match a with | ⟨0, _⟩ => rfl | ⟨1, _⟩ => rfl))

/-- The first block's update at (0, d): what it held plus the block's column sum. -/
theorem sum_update (x : FVec Ideal S1024x512 .f32) (acc : FVec Ideal S1x512 .f32) (d : Fin 512) :
    k0_pay3 x acc (ix2 (0 : Fin 1) d) = acc (ix2 (0 : Fin 1) d) + ∑ j : Fin 1024, x (ix2 j d) := by
  show addf (shapeCast S1x512 acc shapeCasts_S1x512_S1x512)
      (shapeCast S1x512 (multiReduction .add [0] S512 x 0x00000000#32 reduces_S1024x512_S512 (.inl rfl) rfl) shapeCasts_S512_S1x512)
      (ix2 (0 : Fin 1) d) = _
  exact (addf_apply _ _ _).trans (congrArg₂ (· + ·) (congrFun (shapeCast_self acc _) _)
    ((shapeCast_a_1a_apply _ _ (0 : Fin 1) d).trans (lane_sum x d)))

/-- The second block's update at (0, d): what it held plus the column sum of the block's squares. -/
theorem sumsq_update (x : FVec Ideal S1024x512 .f32) (acc : FVec Ideal S1x512 .f32) (d : Fin 512) :
    k0_pay4 x acc (ix2 (0 : Fin 1) d) = acc (ix2 (0 : Fin 1) d) + ∑ j : Fin 1024, x (ix2 j d) * x (ix2 j d) := by
  show addf (shapeCast S1x512 acc shapeCasts_S1x512_S1x512)
      (shapeCast S1x512 (multiReduction .add [0] S512 (mulf x x) 0x00000000#32 reduces_S1024x512_S512 (.inl rfl) rfl) shapeCasts_S512_S1x512)
      (ix2 (0 : Fin 1) d) = _
  exact (addf_apply _ _ _).trans (congrArg₂ (· + ·) (congrFun (shapeCast_self acc _) _)
    ((shapeCast_a_1a_apply _ _ (0 : Fin 1) d).trans (lane_sum (mulf x x) d)))

/-- The zeros the first point stores. -/
theorem zeros1 (d : Fin 512) : (k0_pay1 (F := Ideal)) (ix2 (0 : Fin 1) d) = 0 := Ideal.ofBits_zero_f32
theorem zeros2 (d : Fin 512) : (k0_pay2 (F := Ideal)) (ix2 (0 : Fin 1) d) = 0 := Ideal.ofBits_zero_f32

/-! ## The blocks of x and the running sums -/

section Run
variable (V : (c : Dev nD) → (b : Ref sig .tc) → Buf (Elt Ideal) ((c : Thread nD τ).loc b))

/-- The array x as the region finds it, and its block of 1024 rows at point t. -/
abbrev xarr (c : Dev nD) : FVec Ideal S131072x512 .f32 := V c main_arg0
abbrev xblk (c : Dev nD) (t : Fin cfg0.N) : FVec Ideal S1024x512 .f32 := iblk0 V c 0 t

/-- Point t's block of x is block row t, block column 0. -/
theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (j, d) of point t's block is entry (1024 t + j, d) of x. -/
theorem xblk_apply (c : Dev nD) (t : Fin cfg0.N) (j : Fin 1024) (d : Fin 512) (h : 1024 * t.val + j.val < 131072) :
    xblk V c t (ix2 j d) = xarr V c (ix2 ⟨1024 * t.val + j.val, h⟩ d) := by
  obtain ⟨e0, e1⟩ := idx_x t
  show ((cfg0.win 0).blk t).view.read (Elt Ideal) (V c (Pipeline.arrRef spec0 0)) (ix2 j d) = _
  rw [View.read_apply]
  show V c main_arg0 _ = V c main_arg0 _
  congr 1
  funext a
  apply Fin.ext
  match a with
  | ⟨0, _⟩ => show win0_0.index t (0 : Fin 2) * 1024 + 1 * j.val = 1024 * t.val + j.val; omega
  | ⟨1, _⟩ => show win0_0.index t (1 : Fin 2) * 512 + 1 * d.val = d.val; omega

/-- Row k of x at column d (zero past the last row, which no sum below reaches). -/
def rowAt (c : Dev nD) (k : ℕ) (d : Fin 512) : EReal := if h : k < 131072 then xarr V c (ix2 ⟨k, h⟩ d) else 0

/-- The column sums of the 1024 rows from row 1024 s on, plain and squared. -/
def blockSum (c : Dev nD) (s : ℕ) (d : Fin 512) : EReal := ∑ j : Fin 1024, rowAt V c (1024 * s + j.val) d
def blockSumSq (c : Dev nD) (s : ℕ) (d : Fin 512) : EReal :=
  ∑ j : Fin 1024, rowAt V c (1024 * s + j.val) d * rowAt V c (1024 * s + j.val) d

theorem xblk_row (c : Dev nD) (t : Fin cfg0.N) (j : Fin 1024) (d : Fin 512) :
    xblk V c t (ix2 j d) = rowAt V c (1024 * t.val + j.val) d := by
  have hN : t.val < 128 := lt_of_lt_of_eq t.isLt (show cfg0.N = 128 from N_0)
  have h : 1024 * t.val + j.val < 131072 := by have := j.isLt; omega
  rw [xblk_apply V c t j d h]; unfold rowAt; rw [dif_pos h]

theorem xblk_sum (c : Dev nD) (t : Fin cfg0.N) (d : Fin 512) :
    ∑ j : Fin 1024, xblk V c t (ix2 j d) = blockSum V c t.val d :=
  Finset.sum_congr rfl fun j _ => xblk_row V c t j d

theorem xblk_sumsq (c : Dev nD) (t : Fin cfg0.N) (d : Fin 512) :
    ∑ j : Fin 1024, xblk V c t (ix2 j d) * xblk V c t (ix2 j d) = blockSumSq V c t.val d :=
  Finset.sum_congr rfl fun j _ => by rw [xblk_row V c t j d]

/-- What the two blocks hold after the first point, -/
theorem outs_zero (c : Dev nD) (h : 0 < cfg0.N) :
    outsAt0 V c 0 h = (k0_pay3 (F := Ideal) (xblk V c ⟨0, h⟩) (k0_pay1 (F := Ideal)),
      k0_pay4 (F := Ideal) (xblk V c ⟨0, h⟩) (k0_pay2 (F := Ideal))) := by
  rw [outsAt0_A V c ⟨0, h⟩ rfl, first_sum, first_sumsq]

/-- and after a later point, over what the point before left. -/
theorem outs_succ (c : Dev nD) (n : ℕ) (h : n + 1 < cfg0.N) :
    outsAt0 V c (n + 1) h = (k0_pay3 (F := Ideal) (xblk V c ⟨n + 1, h⟩) (outsAt0 V c n (Nat.lt_of_succ_lt h)).1,
      k0_pay4 (F := Ideal) (xblk V c ⟨n + 1, h⟩) (outsAt0 V c n (Nat.lt_of_succ_lt h)).2) := by
  have hN : cfg0.N = 128 := N_0
  have hB : ¬(⟨n + 1, h⟩ : Fin cfg0.N).val % 128 = 0 := by dsimp only; omega
  rw [outsAt0_B V c ⟨n + 1, h⟩ hB, later_sum, later_sumsq]
  rfl

/-- After point n the blocks hold, at (0, d), the sums over the points up to n of the points' column sums. -/
theorem running (c : Dev nD) : ∀ (n : ℕ) (h : n < cfg0.N) (d : Fin 512),
    (outsAt0 V c n h).1 (ix2 (0 : Fin 1) d) = ∑ s ∈ Finset.range (n + 1), blockSum V c s d
    ∧ (outsAt0 V c n h).2 (ix2 (0 : Fin 1) d) = ∑ s ∈ Finset.range (n + 1), blockSumSq V c s d
  | 0, h, d => by
    rw [outs_zero V c h]
    dsimp only
    rw [sum_update, sumsq_update, zeros1, zeros2, xblk_sum, xblk_sumsq]
    refine ⟨?_, ?_⟩ <;> simp only [zero_add, Finset.sum_range_one]
  | n + 1, h, d => by
    obtain ⟨ih1, ih2⟩ := running c n (Nat.lt_of_succ_lt h) d
    rw [outs_succ V c n h]
    dsimp only
    rw [sum_update, sumsq_update, ih1, ih2, Finset.sum_range_succ _ (n + 1), Finset.sum_range_succ _ (n + 1),
      xblk_sum, xblk_sumsq]
    exact ⟨rfl, rfl⟩

/-- Every row k < 131072 is 1024 s + j for exactly one s < 128 and j < 1024. -/
theorem sum_blocks (g : ℕ → EReal) :
    ∑ s ∈ Finset.range 128, ∑ j : Fin 1024, g (1024 * s + j.val) = ∑ k : Fin 131072, g k.val := by
  rw [Finset.sum_range, ← Fintype.sum_prod_type']
  rw [← Equiv.sum_comp (finProdFinEquiv (m := 128) (n := 1024)) (fun k : Fin (128 * 1024) => g k.val)]
  refine Finset.sum_congr rfl fun p _ => ?_
  show g (1024 * p.1.val + p.2.val) = g (finProdFinEquiv p).val
  rw [finProdFinEquiv_apply_val, Nat.add_comm]

/-- So after the last point T (T = 127) the outer sum runs over all 128 points, the 128 x 1024 rows regroup into
    the 131072 rows of x, and the first block holds the column sums of x, the second those of its squares. -/
theorem last_sum (c : Dev nD) (T : Fin cfg0.N) (hT : T.val = 127) (d : Fin 512) :
    (outsAt0 V c T.val T.isLt).1 (ix2 (0 : Fin 1) d) = Cert.Spec.colSum (xarr V c) d := by
  rw [(running V c T.val T.isLt d).1, hT]
  show ∑ s ∈ Finset.range 128, ∑ j : Fin 1024, rowAt V c (1024 * s + j.val) d = _
  rw [sum_blocks (fun k => rowAt V c k d)]
  exact Finset.sum_congr rfl fun k _ => by unfold rowAt; rw [dif_pos k.isLt]

theorem last_sumsq (c : Dev nD) (T : Fin cfg0.N) (hT : T.val = 127) (d : Fin 512) :
    (outsAt0 V c T.val T.isLt).2 (ix2 (0 : Fin 1) d) = Cert.Spec.colSumSq (xarr V c) d := by
  rw [(running V c T.val T.isLt d).2, hT]
  show ∑ s ∈ Finset.range 128, ∑ j : Fin 1024, rowAt V c (1024 * s + j.val) d * rowAt V c (1024 * s + j.val) d = _
  rw [sum_blocks (fun k => rowAt V c k d * rowAt V c k d)]
  exact Finset.sum_congr rfl fun k _ => by unfold rowAt; rw [dif_pos k.isLt]

end Run

end Cert.KernelIdeal.Stats

end
-- ==== Proof.StatsArray.lean ====
/-
  The two accumulator arrays after the first region. Each is one block that never moves and is written
  back once, after the last point, and that block is the whole array; so each array ends at what the
  last point left in its block: at (0, d), column d's sum of x and the sum of its squares.
  The last point is named T, with T = 127.
-/
import proofs.«113995_j87076166959941_1_alg».proof.Proof.Stats

noncomputable section

namespace Cert.KernelIdeal.Stats

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The accumulators' one block never moves. -/
theorem idx_acc : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What a point would write back of the first accumulator is the whole of what it left in the block, -/
theorem sum_flushed (c : Dev nD) (t : Fin cfg0.N) :
    (dat0 V c).flushed 1 t = ((cfg0.win 1).blk t).view.read (Elt Ideal) (outsAt0 V c t.val t.isLt).1 := by
  obtain ⟨e0, e1, -⟩ := idx_acc t
  show (cfg0.win 1).cut (grid0.coords t) ((dat0 V c).after 1 t) = _
  rw [after0_1]
  have hz' : (fun a => win0_1.index t a * main_v0_0.ty.shape.size a) = fun _ => 0 :=
    funext fun a => by
      match a with
      | ⟨0, _⟩ => show win0_1.index t (0 : Fin 2) * 1 = 0; omega
      | ⟨1, _⟩ => show win0_1.index t (1 : Fin 2) * 512 = 0; omega
  exact (Memref.read_access_unit_zero (Elt Ideal) main_v0_0 hz' (fun a => by rw [congrFun hz' a]; simp) _).symm

/-- and likewise of the second. -/
theorem sumsq_flushed (c : Dev nD) (t : Fin cfg0.N) :
    (dat0 V c).flushed 2 t = ((cfg0.win 2).blk t).view.read (Elt Ideal) (outsAt0 V c t.val t.isLt).2 := by
  obtain ⟨-, -, e0, e1⟩ := idx_acc t
  show (cfg0.win 2).cut (grid0.coords t) ((dat0 V c).after 2 t) = _
  rw [after0_2]
  have hz' : (fun a => win0_2.index t a * main_v0_1.ty.shape.size a) = fun _ => 0 :=
    funext fun a => by
      match a with
      | ⟨0, _⟩ => show win0_2.index t (0 : Fin 2) * 1 = 0; omega
      | ⟨1, _⟩ => show win0_2.index t (1 : Fin 2) * 512 = 0; omega
  exact (Memref.read_access_unit_zero (Elt Ideal) main_v0_1 hz' (fun a => by rw [congrFun hz' a]; simp) _).symm

/-- Every index of an accumulator array is in the block, at every point. -/
theorem mem_sum (t : Fin cfg0.N) (i : S1x512.Idx) : i ∈ ((cfg0.win 1).blk t).view.set := by
  obtain ⟨e0, e1, -⟩ := idx_acc t
  show i ∈ ((View.whole main_v0_0).slice (win0_1.rect t)).set
  rw [View.set_slice_whole, Rect.mem_set_unit]
  have h0 : (i 0).val < 1 := (i 0).isLt
  have h1 : (i 1).val < 512 := (i 1).isLt
  intro a
  match a with
  | ⟨0, _⟩ =>
    show win0_1.index t (0 : Fin 2) * 1 ≤ (i 0).val ∧ (i 0).val < win0_1.index t (0 : Fin 2) * 1 + 1
    omega
  | ⟨1, _⟩ =>
    show win0_1.index t (1 : Fin 2) * 512 ≤ (i 1).val ∧ (i 1).val < win0_1.index t (1 : Fin 2) * 512 + 512
    omega

theorem mem_sumsq (t : Fin cfg0.N) (i : S1x512.Idx) : i ∈ ((cfg0.win 2).blk t).view.set := by
  obtain ⟨-, -, e0, e1⟩ := idx_acc t
  show i ∈ ((View.whole main_v0_1).slice (win0_2.rect t)).set
  rw [View.set_slice_whole, Rect.mem_set_unit]
  have h0 : (i 0).val < 1 := (i 0).isLt
  have h1 : (i 1).val < 512 := (i 1).isLt
  intro a
  match a with
  | ⟨0, _⟩ =>
    show win0_2.index t (0 : Fin 2) * 1 ≤ (i 0).val ∧ (i 0).val < win0_2.index t (0 : Fin 2) * 1 + 1
    omega
  | ⟨1, _⟩ =>
    show win0_2.index t (1 : Fin 2) * 512 ≤ (i 1).val ∧ (i 1).val < win0_2.index t (1 : Fin 2) * 512 + 512
    omega

/-- The one write-back is at the last point T, so the first array ends at what T left in the first block, -/
theorem arr_sum (c : Dev nD) (T : Fin cfg0.N) (hT : T.val = 127) :
    (dat0 V c).arrAt 1 cfg0.N = (outsAt0 V c T.val T.isLt).1 := by
  refine (dat0 V c).arrAt_eq_of_cover 1 _ (fun t hf => ?_) (fun i => ⟨T, (flush0_1 T).mpr (by omega), mem_sum T i⟩)
  have hN : t.val < 128 := lt_of_lt_of_eq t.isLt (show cfg0.N = 128 from N_0)
  have e : t = T := Fin.ext (by have := (flush0_1 t).mp hf; omega)
  subst e
  exact sum_flushed V c t

/-- and the second at what it left in the second. -/
theorem arr_sumsq (c : Dev nD) (T : Fin cfg0.N) (hT : T.val = 127) :
    (dat0 V c).arrAt 2 cfg0.N = (outsAt0 V c T.val T.isLt).2 := by
  refine (dat0 V c).arrAt_eq_of_cover 2 _ (fun t hf => ?_) (fun i => ⟨T, (flush0_2 T).mpr (by omega), mem_sumsq T i⟩)
  have hN : t.val < 128 := lt_of_lt_of_eq t.isLt (show cfg0.N = 128 from N_0)
  have e : t = T := Fin.ext (by have := (flush0_2 t).mp hf; omega)
  subst e
  exact sumsq_flushed V c t

theorem last_lt : 127 < cfg0.N := by rw [show cfg0.N = 128 from N_0]; decide

/-- So after the region the two arrays hold, at (0, d), column d's sum and the sum of its squares. -/
theorem arr_sum_apply (c : Dev nD) (d : Fin 512) :
    ((dat0 V c).arrAt 1 cfg0.N : S1x512.Idx → EReal) (ix2 (0 : Fin 1) d) = Cert.Spec.colSum (xarr V c) d :=
  (congrFun (arr_sum V c ⟨127, last_lt⟩ rfl) (ix2 (0 : Fin 1) d)).trans (last_sum V c ⟨127, last_lt⟩ rfl d)

theorem arr_sumsq_apply (c : Dev nD) (d : Fin 512) :
    ((dat0 V c).arrAt 2 cfg0.N : S1x512.Idx → EReal) (ix2 (0 : Fin 1) d) = Cert.Spec.colSumSq (xarr V c) d :=
  (congrFun (arr_sumsq V c ⟨127, last_lt⟩ rfl) (ix2 (0 : Fin 1) d)).trans (last_sumsq V c ⟨127, last_lt⟩ rfl d)

end Cert.KernelIdeal.Stats

end
-- ==== Proof.HostMid.lean ====
/-
  The host operations between the two regions, from any contents W of the buffers: the mean row is the
  first accumulator over 131072, the reciprocal deviation row is rsqrt of (the second accumulator over
  131072 less the squared mean), and the scale and the shift are reshaped from 512 entries to one row of
  512. The array x is not written.
-/
import proofs.«113995_j87076166959941_1_alg».proof.Proof.Gen.KernelIdeal.Launch
import proofs.«113995_j87076166959941_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostMid

open Cert.KernelIdeal Cert.KernelIdeal.Gen
open Idealize.ShloMosaic Idealize.ShloMosaic.TcCoe Idealize.SL.Sem Idealize.ShloMosaic.ValueIdx Idealize.ShloMosaic.StableHlo

variable (W : Valuation τ sig (Elt Ideal))

/-- The divisor row at any entry is the literal 131072.0. -/
theorem rows_apply (i : S1x512.Idx) :
    broadcastInDim S1x512 ![] bcast_S_S1x512 (constant (F := Ideal) S_ .f32 0x48000000#32) i = Cert.Spec.rows :=
  broadcastInDim_apply _ bcast_S_S1x512 _ i ix0 (fun a => a.elim0)

/-- The mean row. -/
theorem mean_row :
    (after hostOps1 W (Proc.devRef .tc main_v2) : S1x512.Idx → EReal)
      = Host.divf (F := Ideal) (W (Proc.devRef .tc main_v0_0))
          (broadcastInDim S1x512 ![] bcast_S_S1x512 (constant (F := Ideal) S_ .f32 0x48000000#32)) := by
  after_results

theorem mean_apply (d : Fin 512) :
    (after hostOps1 W (Proc.devRef .tc main_v2) : S1x512.Idx → EReal) (ix2 (0 : Fin 1) d)
      = Ideal.div ((W (Proc.devRef .tc main_v0_0) : S1x512.Idx → EReal) (ix2 (0 : Fin 1) d)) Cert.Spec.rows := by
  rw [mean_row]
  show Ideal.div _ (broadcastInDim S1x512 ![] bcast_S_S1x512 (constant (F := Ideal) S_ .f32 0x48000000#32) (ix2 (0 : Fin 1) d)) = _
  rw [rows_apply]

/-- The reciprocal deviation row. -/
theorem rdev_row :
    (after hostOps1 W (Proc.devRef .tc main_v7) : S1x512.Idx → EReal)
      = Host.rsqrt (F := Ideal) (subf
          (Host.divf (F := Ideal) (W (Proc.devRef .tc main_v0_1))
            (broadcastInDim S1x512 ![] bcast_S_S1x512 (constant (F := Ideal) S_ .f32 0x48000000#32)))
          (mulf
            (Host.divf (F := Ideal) (W (Proc.devRef .tc main_v0_0))
              (broadcastInDim S1x512 ![] bcast_S_S1x512 (constant (F := Ideal) S_ .f32 0x48000000#32)))
            (Host.divf (F := Ideal) (W (Proc.devRef .tc main_v0_0))
              (broadcastInDim S1x512 ![] bcast_S_S1x512 (constant (F := Ideal) S_ .f32 0x48000000#32))))) := by
  after_results

theorem rdev_apply (d : Fin 512) :
    (after hostOps1 W (Proc.devRef .tc main_v7) : S1x512.Idx → EReal) (ix2 (0 : Fin 1) d)
      = Ideal.rsqrt (Ideal.div ((W (Proc.devRef .tc main_v0_1) : S1x512.Idx → EReal) (ix2 (0 : Fin 1) d)) Cert.Spec.rows
          - Ideal.div ((W (Proc.devRef .tc main_v0_0) : S1x512.Idx → EReal) (ix2 (0 : Fin 1) d)) Cert.Spec.rows
            * Ideal.div ((W (Proc.devRef .tc main_v0_0) : S1x512.Idx → EReal) (ix2 (0 : Fin 1) d)) Cert.Spec.rows) := by
  rw [rdev_row]
  show Ideal.rsqrt (Ideal.div _ (broadcastInDim S1x512 ![] bcast_S_S1x512 (constant (F := Ideal) S_ .f32 0x48000000#32) (ix2 (0 : Fin 1) d))
      - Ideal.div _ (broadcastInDim S1x512 ![] bcast_S_S1x512 (constant (F := Ideal) S_ .f32 0x48000000#32) (ix2 (0 : Fin 1) d))
        * Ideal.div _ (broadcastInDim S1x512 ![] bcast_S_S1x512 (constant (F := Ideal) S_ .f32 0x48000000#32) (ix2 (0 : Fin 1) d))) = _
  rw [rows_apply]

/-- The scale and the shift as rows. -/
theorem scale_row :
    (after hostOps1 W (Proc.devRef .tc main_v8) : S1x512.Idx → EReal)
      = shapeCast S1x512 (W (Proc.devRef .tc main_arg1) : S512.Idx → EReal) shapeCasts_S512_S1x512 := by
  after_results
  rfl

theorem scale_apply (d : Fin 512) :
    (after hostOps1 W (Proc.devRef .tc main_v8) : S1x512.Idx → EReal) (ix2 (0 : Fin 1) d)
      = (W (Proc.devRef .tc main_arg1) : S512.Idx → EReal) (ix1 d) := by
  rw [scale_row]
  exact shapeCast_a_1a_apply _ _ (0 : Fin 1) d

theorem shift_row :
    (after hostOps1 W (Proc.devRef .tc main_v9) : S1x512.Idx → EReal)
      = shapeCast S1x512 (W (Proc.devRef .tc main_arg2) : S512.Idx → EReal) shapeCasts_S512_S1x512 := by
  after_results
  rfl

theorem shift_apply (d : Fin 512) :
    (after hostOps1 W (Proc.devRef .tc main_v9) : S1x512.Idx → EReal) (ix2 (0 : Fin 1) d)
      = (W (Proc.devRef .tc main_arg2) : S512.Idx → EReal) (ix1 d) := by
  rw [shift_row]
  exact shapeCast_a_1a_apply _ _ (0 : Fin 1) d

/-- The array x passes through. -/
theorem x_kept : after hostOps1 W (Proc.devRef .tc main_arg0) = W (Proc.devRef .tc main_arg0) := by
  after_results

end Cert.KernelIdeal.HostMid

end
-- ==== Proof.Norm.lean ====
/-
  The second region: over 64 grid points of 2048 rows each it writes, from the block of x at the point
  and four 1 x 512 rows mu, rs, g, b that every point reads whole,
  ((x - mu) * rs) * g + b, each row broadcast down the 2048 rows of the block. Point t's block of the
  result is rows 2048 t .. 2048 t + 2047, all 512 columns, and it is written back at every point; so the
  result array ends at the one function (n, d) |-> ((x (n, d) - mu (0, d)) * rs (0, d)) * g (0, d) + b (0, d)
  of the five arrays as the region finds them: row n lies in the block of point n / 2048.
-/
import proofs.«113995_j87076166959941_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Norm

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's arithmetic at entry (r, d) of the block: each of the four rows is read at (0, d). -/
theorem pay_apply (x0 : FVec Ideal S2048x512 .f32) (x1 x2 x3 x4 : FVec Ideal S1x512 .f32) (r : Fin 2048) (d : Fin 512) :
    k1_pay1 x0 x1 x2 x3 x4 (ix2 r d)
      = (x0 (ix2 r d) - x1 (ix2 (0 : Fin 1) d)) * x2 (ix2 (0 : Fin 1) d) * x3 (ix2 (0 : Fin 1) d) + x4 (ix2 (0 : Fin 1) d) := by
  have row : ∀ v : FVec Ideal S1x512 .f32,
      broadcastTo S2048x512 (shapeCast S1x512 v shapeCasts_S1x512_S1x512) broadcasts_S1x512_S2048x512 (ix2 r d)
        = v (ix2 (0 : Fin 1) d) :=
    fun v => (broadcastTo_1b_ab_apply _ _ r d).trans (congrFun (shapeCast_self v _) _)
  show (x0 (ix2 r d) - broadcastTo S2048x512 (shapeCast S1x512 x1 shapeCasts_S1x512_S1x512) broadcasts_S1x512_S2048x512 (ix2 r d))
      * broadcastTo S2048x512 (shapeCast S1x512 x2 shapeCasts_S1x512_S1x512) broadcasts_S1x512_S2048x512 (ix2 r d)
      * broadcastTo S2048x512 (shapeCast S1x512 x3 shapeCasts_S1x512_S1x512) broadcasts_S1x512_S2048x512 (ix2 r d)
      + broadcastTo S2048x512 (shapeCast S1x512 x4 shapeCasts_S1x512_S1x512) broadcasts_S1x512_S2048x512 (ix2 r d) = _
  rw [row x1, row x2, row x3, row x4]

/-- The result as one function of the five arrays. -/
def normed (x : FVec Ideal S131072x512 .f32) (mu rs g b : FVec Ideal S1x512 .f32) : FVec Ideal S131072x512 .f32 :=
  fun i => (x i - mu (ix2 (0 : Fin 1) (i 1))) * rs (ix2 (0 : Fin 1) (i 1)) * g (ix2 (0 : Fin 1) (i 1))
    + b (ix2 (0 : Fin 1) (i 1))

section Run
variable (V : (c : Dev nD) → (b : Ref sig .tc) → Buf (Elt Ideal) ((c : Thread nD τ).loc b))

/-- The blocks the body loads at point t, by their literal shapes. -/
abbrev xb (c : Dev nD) (t : Fin cfg1.N) : FVec Ideal S2048x512 .f32 := iblk1 V c 0 t
abbrev b1 (c : Dev nD) (t : Fin cfg1.N) : FVec Ideal S1x512 .f32 := iblk1 V c 1 t
abbrev b2 (c : Dev nD) (t : Fin cfg1.N) : FVec Ideal S1x512 .f32 := iblk1 V c 2 t
abbrev b3 (c : Dev nD) (t : Fin cfg1.N) : FVec Ideal S1x512 .f32 := iblk1 V c 3 t
abbrev b4 (c : Dev nD) (t : Fin cfg1.N) : FVec Ideal S1x512 .f32 := iblk1 V c 4 t

/-- The printed index maps over the grid: x's block and the result's are block row t; the four rows never move. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (r, d) of point t's block of x is entry (2048 t + r, d) of x. -/
theorem xb_apply (c : Dev nD) (t : Fin cfg1.N) (r : Fin 2048) (d : Fin 512) (h : 2048 * t.val + r.val < 131072) :
    xb V c t (ix2 r d) = V c main_arg0 (ix2 ⟨2048 * t.val + r.val, h⟩ d) := by
  obtain ⟨e0, e1, -⟩ := idx_facts t
  show ((cfg1.win 0).blk t).view.read (Elt Ideal) (V c (Pipeline.arrRef spec1 0)) (ix2 r d) = _
  rw [View.read_apply]
  show V c main_arg0 _ = V c main_arg0 _
  congr 1
  funext a
  apply Fin.ext
  match a with
  | ⟨0, _⟩ => show win1_0.index t (0 : Fin 2) * 2048 + 1 * r.val = 2048 * t.val + r.val; omega
  | ⟨1, _⟩ => show win1_0.index t (1 : Fin 2) * 512 + 1 * d.val = d.val; omega

/-- Each row block is its whole array, at every point. -/
theorem b1_apply (c : Dev nD) (t : Fin cfg1.N) (d : Fin 512) : b1 V c t (ix2 (0 : Fin 1) d) = V c main_v2 (ix2 (0 : Fin 1) d) := by
  obtain ⟨-, -, -, -, e0, e1, -⟩ := idx_facts t
  show ((cfg1.win 1).blk t).view.read (Elt Ideal) (V c (Pipeline.arrRef spec1 1)) (ix2 (0 : Fin 1) d) = _
  rw [View.read_apply]
  show V c main_v2 _ = V c main_v2 _
  congr 1
  funext a
  apply Fin.ext
  match a with
  | ⟨0, _⟩ => show win1_1.index t (0 : Fin 2) * 1 + 1 * 0 = 0; omega
  | ⟨1, _⟩ => show win1_1.index t (1 : Fin 2) * 512 + 1 * d.val = d.val; omega

theorem b2_apply (c : Dev nD) (t : Fin cfg1.N) (d : Fin 512) : b2 V c t (ix2 (0 : Fin 1) d) = V c main_v7 (ix2 (0 : Fin 1) d) := by
  obtain ⟨-, -, -, -, -, -, e0, e1, -⟩ := idx_facts t
  show ((cfg1.win 2).blk t).view.read (Elt Ideal) (V c (Pipeline.arrRef spec1 2)) (ix2 (0 : Fin 1) d) = _
  rw [View.read_apply]
  show V c main_v7 _ = V c main_v7 _
  congr 1
  funext a
  apply Fin.ext
  match a with
  | ⟨0, _⟩ => show win1_2.index t (0 : Fin 2) * 1 + 1 * 0 = 0; omega
  | ⟨1, _⟩ => show win1_2.index t (1 : Fin 2) * 512 + 1 * d.val = d.val; omega

theorem b3_apply (c : Dev nD) (t : Fin cfg1.N) (d : Fin 512) : b3 V c t (ix2 (0 : Fin 1) d) = V c main_v8 (ix2 (0 : Fin 1) d) := by
  obtain ⟨-, -, -, -, -, -, -, -, e0, e1, -⟩ := idx_facts t
  show ((cfg1.win 3).blk t).view.read (Elt Ideal) (V c (Pipeline.arrRef spec1 3)) (ix2 (0 : Fin 1) d) = _
  rw [View.read_apply]
  show V c main_v8 _ = V c main_v8 _
  congr 1
  funext a
  apply Fin.ext
  match a with
  | ⟨0, _⟩ => show win1_3.index t (0 : Fin 2) * 1 + 1 * 0 = 0; omega
  | ⟨1, _⟩ => show win1_3.index t (1 : Fin 2) * 512 + 1 * d.val = d.val; omega

theorem b4_apply (c : Dev nD) (t : Fin cfg1.N) (d : Fin 512) : b4 V c t (ix2 (0 : Fin 1) d) = V c main_v9 (ix2 (0 : Fin 1) d) := by
  obtain ⟨-, -, -, -, -, -, -, -, -, -, e0, e1⟩ := idx_facts t
  show ((cfg1.win 4).blk t).view.read (Elt Ideal) (V c (Pipeline.arrRef spec1 4)) (ix2 (0 : Fin 1) d) = _
  rw [View.read_apply]
  show V c main_v9 _ = V c main_v9 _
  congr 1
  funext a
  apply Fin.ext
  match a with
  | ⟨0, _⟩ => show win1_4.index t (0 : Fin 2) * 1 + 1 * 0 = 0; omega
  | ⟨1, _⟩ => show win1_4.index t (1 : Fin 2) * 512 + 1 * d.val = d.val; omega

/-- Entry (r, d) of point t's block of the result sits at (2048 t + r, d) of the result array. -/
theorem emb_out (t : Fin cfg1.N) (r : Fin 2048) (d : Fin 512) (h : 2048 * t.val + r.val < 131072) :
    ((cfg1.win 5).blk t).view.emb (ix2 r d) = ix2 ⟨2048 * t.val + r.val, h⟩ d := by
  obtain ⟨-, -, e0, e1, -⟩ := idx_facts t
  funext a
  apply Fin.ext
  match a with
  | ⟨0, _⟩ => show win1_5.index t (0 : Fin 2) * 2048 + 1 * r.val = 2048 * t.val + r.val; omega
  | ⟨1, _⟩ => show win1_5.index t (1 : Fin 2) * 512 + 1 * d.val = d.val; omega

/-- What point t writes back is block t of the one function of the five arrays. -/
theorem flushed_eq (c : Dev nD) (t : Fin cfg1.N) :
    (dat1 V c).flushed 5 t = ((cfg1.win 5).blk t).view.read (Elt Ideal)
      (normed (V c main_arg0) (V c main_v2) (V c main_v7) (V c main_v8) (V c main_v9)) := by
  have hN : t.val < 64 := lt_of_lt_of_eq t.isLt (show cfg1.N = 64 from N_1)
  show (cfg1.win 5).cut (grid1.coords t) ((dat1 V c).after 5 t) = _
  rw [after1_5]
  unfold out1_5
  rw [View.canon_unit_zero hz]
  simp only [View.ld_unit_zero (S := S2048x512) hz, View.ld_unit_zero (S := S1x512) hz]
  refine funext fun (j : S2048x512.Idx) => ?_
  obtain ⟨r, d, rfl⟩ : ∃ (r : Fin 2048) (d : Fin 512), j = ix2 r d := ⟨j 0, j 1, eq_ix2 j⟩
  have h : 2048 * t.val + r.val < 131072 := by have := r.isLt; omega
  rw [View.read_apply]
  show k1_pay1 (xb V c t) (b1 V c t) (b2 V c t) (b3 V c t) (b4 V c t) (ix2 r d)
    = normed (V c main_arg0) (V c main_v2) (V c main_v7) (V c main_v8) (V c main_v9) (((cfg1.win 5).blk t).view.emb (ix2 r d))
  rw [pay_apply, xb_apply V c t r d h, b1_apply, b2_apply, b3_apply, b4_apply, emb_out t r d h]
  rfl

/-- An index of the result array is in point t's block iff each coordinate is in the block's range on its axis. -/
theorem mem_blk (t : Fin cfg1.N) (i : S131072x512.Idx) :
    i ∈ ((cfg1.win 5).blk t).view.set ↔ ∀ a : Fin 2, win1_5.index t a * S2048x512.size a ≤ (i a).val
      ∧ (i a).val < win1_5.index t a * S2048x512.size a + S2048x512.size a := by
  show i ∈ ((View.whole main_v10).slice (win1_5.rect t)).set ↔ _
  rw [View.set_slice_whole, Rect.mem_set_unit]
  exact Iff.rfl

/-- Row n of the result lies in the block of point n / 2048, and every point writes its block back. -/
theorem cover (i : S131072x512.Idx) :
    ∃ t : Fin cfg1.N, (cfg1.win 5).flush t = true ∧ i ∈ ((cfg1.win 5).blk t).view.set := by
  have hi0 : (i 0).val < 131072 := (i 0).isLt
  have hi1 : (i 1).val < 512 := (i 1).isLt
  have hq : (i 0).val / 2048 < cfg1.N := by rw [show cfg1.N = 64 from N_1]; omega
  obtain ⟨-, -, e0, e1, -⟩ := idx_facts ⟨(i 0).val / 2048, hq⟩
  have e0' : win1_5.index ⟨(i 0).val / 2048, hq⟩ (0 : Fin 2) = (i 0).val / 2048 := e0
  refine ⟨⟨(i 0).val / 2048, hq⟩, flush1_5 _, ?_⟩
  rw [mem_blk]
  intro a
  match a with
  | ⟨0, _⟩ =>
    show win1_5.index ⟨(i 0).val / 2048, hq⟩ (0 : Fin 2) * 2048 ≤ (i 0).val
      ∧ (i 0).val < win1_5.index ⟨(i 0).val / 2048, hq⟩ (0 : Fin 2) * 2048 + 2048
    omega
  | ⟨1, _⟩ =>
    show win1_5.index ⟨(i 0).val / 2048, hq⟩ (1 : Fin 2) * 512 ≤ (i 1).val
      ∧ (i 1).val < win1_5.index ⟨(i 0).val / 2048, hq⟩ (1 : Fin 2) * 512 + 512
    omega

/-- The result array after the region. -/
theorem final (c : Dev nD) : (dat1 V c).arrAt 5 cfg1.N
    = normed (V c main_arg0) (V c main_v2) (V c main_v7) (V c main_v8) (V c main_v9) :=
  (dat1 V c).arrAt_eq_of_cover 5 _ (fun t _ => flushed_eq V c t) cover

end Run

end Cert.KernelIdeal.Norm

end
-- ==== Proof.KernelValue.lean ====
/-
  The kernel's result array, named by the run as the last boundary's contents, is the raw spelling of the
  specification of the three launch arrays. Through the run: the second region leaves
  ((x - mu) * rs) * g + b of the arrays it finds; the host operations before it make mu the first
  accumulator over 131072, rs the rsqrt of the second accumulator over 131072 less mu squared, and g, b
  the scale and the shift as rows; the first region leaves in the accumulators the column sums of x and of
  its squares; and x, the scale and the shift are never written.
-/
import proofs.«113995_j87076166959941_1_alg».proof.Proof.KernelIdealRun
import proofs.«113995_j87076166959941_1_alg».proof.Proof.StatsArray
import proofs.«113995_j87076166959941_1_alg».proof.Proof.HostMid
import proofs.«113995_j87076166959941_1_alg».proof.Proof.Norm
import proofs.«113995_j87076166959941_1_alg».proof.Proof.Spec

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The launch arrays by their literal shapes. -/
abbrev xIn (c : Dev nD) : FVec Ideal S131072x512 .f32 := m ((c : Thread nD τ).loc main_arg0)
abbrev scaleIn (c : Dev nD) : FVec Ideal S512 .f32 := m ((c : Thread nD τ).loc main_arg1)
abbrev shiftIn (c : Dev nD) : FVec Ideal S512 .f32 := m ((c : Thread nD τ).loc main_arg2)

/-- The second region finds x as launched, -/
theorem x_at_norm (c : Dev nD) : W2 m ρ c (Proc.devRef .tc main_arg0) = m ((c : Thread nD τ).loc main_arg0) :=
  ((W3_arr m ρ c 0).trans (((dat1 (V2 m ρ) c).arrAt_in 0 rfl _).trans (A_eq1 (V2 m ρ) c 0))).symm.trans (W3_main_arg0 m ρ c)

/-- the host stretch finds the scale and the shift as launched, -/
theorem scale_at_host (c : Dev nD) : W1 m ρ c (Proc.devRef .tc main_arg1) = m ((c : Thread nD τ).loc main_arg1) :=
  W1_of_ne m ρ c main_arg1 (by decide)
theorem shift_at_host (c : Dev nD) : W1 m ρ c (Proc.devRef .tc main_arg2) = m ((c : Thread nD τ).loc main_arg2) :=
  W1_of_ne m ρ c main_arg2 (by decide)

/-- and the accumulators at the column sums of x and of its squares. -/
theorem sum_at_host (c : Dev nD) (d : Fin 512) :
    (W1 m ρ c (Proc.devRef .tc main_v0_0) : S1x512.Idx → EReal) (ix2 (0 : Fin 1) d) = Cert.Spec.colSum (xIn m c) d :=
  (congrFun (W1_arr m ρ c 1) (ix2 (0 : Fin 1) d)).trans (Stats.arr_sum_apply (V0 m ρ) c d)
theorem sumsq_at_host (c : Dev nD) (d : Fin 512) :
    (W1 m ρ c (Proc.devRef .tc main_v0_1) : S1x512.Idx → EReal) (ix2 (0 : Fin 1) d) = Cert.Spec.colSumSq (xIn m c) d :=
  (congrFun (W1_arr m ρ c 2) (ix2 (0 : Fin 1) d)).trans (Stats.arr_sumsq_apply (V0 m ρ) c d)

/-- The five arrays the second region finds, by their literal shapes. -/
abbrev xN (c : Dev nD) : FVec Ideal S131072x512 .f32 := V2 m ρ c main_arg0
abbrev muN (c : Dev nD) : FVec Ideal S1x512 .f32 := V2 m ρ c main_v2
abbrev rsN (c : Dev nD) : FVec Ideal S1x512 .f32 := V2 m ρ c main_v7
abbrev gN (c : Dev nD) : FVec Ideal S1x512 .f32 := V2 m ρ c main_v8
abbrev bN (c : Dev nD) : FVec Ideal S1x512 .f32 := V2 m ρ c main_v9

/-- Each at an entry, in terms of the launch arrays: x itself, -/
theorem xN_apply (c : Dev nD) (i : S131072x512.Idx) : xN m ρ c i = xIn m c i :=
  congrFun (x_at_norm m ρ c) i

/-- the column's mean, -/
theorem muN_apply (c : Dev nD) (d : Fin 512) : muN m ρ c (ix2 (0 : Fin 1) d) = Cert.Spec.mean (xIn m c) d := by
  refine (HostMid.mean_apply (W1 m ρ c) d).trans ?_
  rw [sum_at_host m ρ c d]; rfl

/-- the rsqrt of the column's raw variance, -/
theorem rsN_apply (c : Dev nD) (d : Fin 512) :
    rsN m ρ c (ix2 (0 : Fin 1) d) = Ideal.rsqrt (Cert.Spec.varRaw (xIn m c) d) := by
  refine (HostMid.rdev_apply (W1 m ρ c) d).trans ?_
  rw [sum_at_host m ρ c d, sumsq_at_host m ρ c d]; rfl

/-- the scale and the shift. -/
theorem gN_apply (c : Dev nD) (d : Fin 512) : gN m ρ c (ix2 (0 : Fin 1) d) = scaleIn m c (ix1 d) := by
  refine (HostMid.scale_apply (W1 m ρ c) d).trans ?_
  rw [scale_at_host m ρ c]
theorem bN_apply (c : Dev nD) (d : Fin 512) : bN m ρ c (ix2 (0 : Fin 1) d) = shiftIn m c (ix1 d) := by
  refine (HostMid.shift_apply (W1 m ρ c) d).trans ?_
  rw [shift_at_host m ρ c]

/-- The result array the run names is the raw spelling of the specification of the launch arrays. -/
theorem result_eq (c : Dev nD) :
    (W3 m ρ c (Proc.devRef .tc main_v10) : S131072x512.Idx → EReal)
      = Cert.Spec.stdRaw (xIn m c) (scaleIn m c) (shiftIn m c) := by
  have e5 : W3 m ρ c (Proc.devRef .tc main_v10) = (dat1 (V2 m ρ) c).arrAt 5 cfg1.N := W3_arr m ρ c 5
  rw [e5, Norm.final (V2 m ρ) c]
  funext i
  obtain ⟨n, d, rfl⟩ : ∃ (n : Fin 131072) (d : Fin 512), i = ix2 n d := ⟨i 0, i 1, eq_ix2 i⟩
  show (xN m ρ c (ix2 n d) - muN m ρ c (ix2 (0 : Fin 1) d)) * rsN m ρ c (ix2 (0 : Fin 1) d) * gN m ρ c (ix2 (0 : Fin 1) d)
      + bN m ρ c (ix2 (0 : Fin 1) d)
    = Cert.Spec.normAt (xIn m c) (Cert.Spec.varRaw (xIn m c)) (scaleIn m c) (shiftIn m c) n d
  rw [xN_apply, muN_apply, rsN_apply, gN_apply, bN_apply]
  rfl

/-- The run of the idealized kernel with its result at the raw spelling. -/
theorem run : θ_run defs (onTc (τ := τ) (main (F := Ideal))) ⟨m, fun _ => 0, ρ⟩ (fun r => ∀ c : Dev nD,
      r.2.mem ((c.tc : Thread nD τ).loc main_v10) = Cert.Spec.stdRaw (xIn m c) (scaleIn m c) (shiftIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (Cert.KernelIdeal.Run.run_named m ρ)

end Cert.KernelIdeal.Result

end
-- ==== Proof.lean ====
/-
  Column standardisation, the kernel against its reference, over the extended reals.

  Both programs compute, for x of 131072 x 512 entries and a scale and a shift of 512,
  ((x n d - mean d) * rsqrt (var d)) * scale d + shift d with mean d the column's sum over 131072.
  The reference takes var d as the sum of the squared centred column over 131072. The kernel takes it
  as the sum of the column's squares over 131072 less mean d squared, from two sums it accumulates over
  128 blocks of 1024 rows in a first pass, and normalises in a second pass over 64 blocks of 2048 rows.
  Over real entries the two variances are one number (expand the square; the column's sum is 131072
  times its mean), and everything after the variance is the same operations on equal values. The
  identity distributes a product over a sum, so it needs the entries real: that is what the
  precondition gives.

  The three programs terminate without a fault and leave their arguments as launched: the two kernel
  programs by their frames, the reference by its run. Nothing was rewritten between the kernel and
  its idealization.
-/
import proofs.«113995_j87076166959941_1_alg».proof.Defs
import proofs.«113995_j87076166959941_1_alg».proof.Proof.Gen.Kernel
import proofs.«113995_j87076166959941_1_alg».proof.Proof.Gen.Kernel.Skeleton
import proofs.«113995_j87076166959941_1_alg».proof.Proof.Gen.Kernel.Launch
import proofs.«113995_j87076166959941_1_alg».proof.Proof.Gen.Kernel.Points
import proofs.«113995_j87076166959941_1_alg».proof.Proof.Gen.Kernel.Frame
import proofs.«113995_j87076166959941_1_alg».proof.Proof.Gen.KernelIdeal
import proofs.«113995_j87076166959941_1_alg».proof.Proof.Gen.KernelIdeal.Skeleton
import proofs.«113995_j87076166959941_1_alg».proof.Proof.Gen.KernelIdeal.Launch
import proofs.«113995_j87076166959941_1_alg».proof.Proof.Gen.KernelIdeal.Points
import proofs.«113995_j87076166959941_1_alg».proof.Proof.Gen.KernelIdeal.Frame
import proofs.«113995_j87076166959941_1_alg».proof.Proof.Gen.ReferenceIdeal
import proofs.«113995_j87076166959941_1_alg».proof.Proof.Gen.ReferenceIdeal.Run
import proofs.«113995_j87076166959941_1_alg».proof.Proof.Gen.ReferenceIdeal.Read
import proofs.«113995_j87076166959941_1_alg».proof.Proof.Gen.Pre_finite_inputs
import proofs.«113995_j87076166959941_1_alg».proof.Proof.Spec
import proofs.«113995_j87076166959941_1_alg».proof.Proof.Finite
import proofs.«113995_j87076166959941_1_alg».proof.Proof.RefValue
import proofs.«113995_j87076166959941_1_alg».proof.Proof.KernelValue
import Idealize.ShloMosaic.Adequacy
import Idealize.ShloMosaic.Init

noncomputable section

namespace Cert.Proof

open Idealize.ShloMosaic Idealize.SL.Sem

/-- The kernel and its idealization run and keep their arguments. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories agreeing on the three arrays, with the data array's entries real, the idealized kernel ends
    at the raw spelling of the standardisation and the reference at the centred one: one function. -/
theorem algebraic : Cert.algebraic_KernelIdeal_ReferenceIdeal := by
  intro m ρ m' ρ' hpre hagree
  refine ⟨fun c => Cert.Spec.stdRaw (Cert.KernelIdeal.Result.xIn m c) (Cert.KernelIdeal.Result.scaleIn m c)
    (Cert.KernelIdeal.Result.shiftIn m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  refine (Cert.ReferenceIdeal.RefValue.ref_eq _ _ _).trans ?_
  exact (Cert.Spec.stdRaw_eq_stdCentred _ (Cert.Finite.x_real _ _ _ (hpre c)) _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
